-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16x16 : Shape := ⟨3, ![16384, 16, 16]⟩
abbrev S1024x4 : Shape := ⟨2, ![1024, 4]⟩
abbrev S4 : Shape := ⟨1, ![4]⟩
abbrev S1024x1024 : Shape := ⟨2, ![1024, 1024]⟩
abbrev S1024 : Shape := ⟨1, ![1024]⟩
abbrev S_ : Shape := ⟨0, ![]⟩

class Facts : Prop where
  bcast_S_S1024x4 : S_.BroadcastsInDim S1024x4 (![] : Fin 0 → Fin S1024x4.rank)
  reducesTo_S1024x4_S_d0_1 : S1024x4.ReducesTo [0, 1] S_
  h_S_ : 0 < S_.numel
  bcast_S_S4 : S_.BroadcastsInDim S4 (![] : Fin 0 → Fin S4.rank)
  reducesTo_S4_S_d0 : S4.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : IVec S16384x16x16 32) (main_arg1 : FVec F S1024x4 .f32) (main_arg2 : FVec F S4 .f32) (main_arg3 : FVec F S1024x1024 .f32) (main_arg4 : FVec F S1024 .f32) : IVec S_ 1 :=
  let main_v0 : FVec F S1024x4 .f32 := Host.absf main_arg1
  let main_cst : FVec F S_ .f32 := constant S_ .f32 0x7F800000#32
  let main_v1 : FVec F S1024x4 .f32 := broadcastInDim S1024x4 ![] bcast_S_S1024x4 main_cst
  let main_v2 : IVec S1024x4 1 := cmpf .olt main_v0 main_v1
  let main_c : IVec S_ 1 := constantI S_ 1 1#1
  let main_v3 : IVec S_ 1 := (fun x v => Host.reduce IntOp.andi x v reducesTo_S1024x4_S_d0_1 h_S_) main_v2 main_c
  let main_v4 : FVec F S4 .f32 := Host.absf main_arg2
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S16384x16x16 : Shape := ⟨3, ![16384, 16, 16]⟩
abbrev S1024x4 : Shape := ⟨2, ![1024, 4]⟩
abbrev S4 : Shape := ⟨1, ![4]⟩
abbrev S1024x1024 : Shape := ⟨2, ![1024, 1024]⟩
abbrev S1024 : Shape := ⟨1, ![1024]⟩
abbrev S_ : Shape := ⟨0, ![]⟩
abbrev S16384x16x16x1 : Shape := ⟨4, ![16384, 16, 16, 1]⟩
abbrev S16384x16x16x4 : Shape := ⟨4, ![16384, 16, 16, 4]⟩
abbrev S1x1x1x4 : Shape := ⟨4, ![1, 1, 1, 4]⟩
abbrev S16384x1024 : Shape := ⟨2, ![16384, 1024]⟩
abbrev S1x1024 : Shape := ⟨2, ![1, 1024]⟩
abbrev S2048x1024 : Shape := ⟨2, ![2048, 1024]⟩

abbrev nBuf : Space → Nat
  | .hbm => 22
  | .vmem => 6
  | .smem => 0
  | _ => 0

abbrev bufTy : (tb : Table) → Fin (tcTables nBuf tb) → BufTy
  | .hbm, ⟨0, _⟩ => ⟨S16384x16x16, .i32⟩
  | .hbm, ⟨1, _⟩ => ⟨S1024x4, .f32⟩
  | .hbm, ⟨2, _⟩ => ⟨S4, .f32⟩
  | .hbm, ⟨3, _⟩ => ⟨S1024x1024, .f32⟩
  | .hbm, ⟨4, _⟩ => ⟨S1024, .f32⟩
  | .hbm, ⟨5, _⟩ => ⟨S_, .i32⟩
  | .hbm, ⟨6, _⟩ => ⟨S16384x16x16, .i32⟩
  | .hbm, ⟨7, _⟩ => ⟨S16384x16x16, .i1⟩
  | .hbm, ⟨8, _⟩ => ⟨S_, .i32⟩
  | .hbm, ⟨9, _⟩ => ⟨S16384x16x16, .i32⟩
  | .hbm, ⟨10, _⟩ => ⟨S16384x16x16, .i32⟩
  | .hbm, ⟨11, _⟩ => ⟨S16384x16x16, .i32⟩
  | .hbm, ⟨12, _⟩ => ⟨S16384x16x16x1, .i32⟩
  | .hbm, ⟨13, _⟩ => ⟨S16384x16x16x4, .f32⟩
  | .hbm, ⟨14, _⟩ => ⟨S1x1x1x4, .f32⟩
  | .hbm, ⟨15, _⟩ => ⟨S16384x16x16x4, .f32⟩
  | .hbm, ⟨16, _⟩ => ⟨S16384x16x16x4, .f32⟩
  | .hbm, ⟨17, _⟩ => ⟨S16384x1024, .f32⟩
  | .hbm, ⟨18, _⟩ => ⟨S16384x1024, .bf16⟩
  | .hbm, ⟨19, _⟩ => ⟨S1024x1024, .bf16⟩
  | .hbm, ⟨20, _⟩ => ⟨S1x1024, .f32⟩
  | .hbm, ⟨21, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | _, _ => ⟨S16384x16x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16384x16x16 : S_.BroadcastsInDim S16384x16x16 (![] : Fin 0 → Fin S16384x16x16.rank)
  bcast_S16384x16x16_S16384x16x16x1_0_1_2 : S16384x16x16.BroadcastsInDim S16384x16x16x1 (![0, 1, 2] : Fin 3 → Fin S16384x16x16x1.rank)
  bcast_S4_S1x1x1x4_3 : S4.BroadcastsInDim S1x1x1x4 (![3] : Fin 1 → Fin S1x1x1x4.rank)
  bcast_S1x1x1x4_S16384x16x16x4_0_1_2_3 : S1x1x1x4.BroadcastsInDim S16384x16x16x4 (![0, 1, 2, 3] : Fin 4 → Fin S16384x16x16x4.rank)
  shapeCasts_S16384x16x16x4_S16384x1024 : S16384x16x16x4.ShapeCasts S16384x1024
  bitsLt_bf16_f32 : FTy.bits .bf16 < FTy.bits .f32
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  gather_S1024x4_S16384x16x16x1_S16384x16x16x4_3_0_n_n_0_3_14_wf : GatherDims.WF S1024x4 S16384x16x16x1 S16384x16x16x4 [3] [0] [] [0] [] 3 ![1, 4]
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .bf16 = 32 ∨ (Rect.block (s := S16384x1024) S2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S16384x1024.size a
  hwx0_3 : ∀ i : grid0.Coords, EltTy.bits .f32 = 32 ∨ (Rect.block (s := S16384x1024) S2048x1024.size (cc0_transform_3 i) (hinb0_3 i)).WholeWords (EltTy.packing .f32)

variable [Facts₀]

def gather_S1024x4_S16384x16x16x1_S16384x16x16x4_3_0_n_n_0_3_14 : GatherDims S1024x4 S16384x16x16x1 S16384x16x16x4 where
  offsetDims := [3]
  collapsedSliceDims := [0]
  operandBatchingDims := []
  startIndicesBatchingDims := []
  startIndexMap := [0]
  indexVectorDim := 3
  sliceSizes := ![1, 4]
  wf := gather_S1024x4_S16384x16x16x1_S16384x16x16x4_3_0_n_n_0_3_14_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v11) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x16x16 : Shape := ⟨3, ![16384, 16, 16]⟩
abbrev S1024x4 : Shape := ⟨2, ![1024, 4]⟩
abbrev S4 : Shape := ⟨1, ![4]⟩
abbrev S1024x1024 : Shape := ⟨2, ![1024, 1024]⟩
abbrev S1024 : Shape := ⟨1, ![1024]⟩
abbrev S_ : Shape := ⟨0, ![]⟩
abbrev S16384x16x16x1 : Shape := ⟨4, ![16384, 16, 16, 1]⟩
abbrev S16384x16x16x4 : Shape := ⟨4, ![16384, 16, 16, 4]⟩
abbrev S1x1x1x4 : Shape := ⟨4, ![1, 1, 1, 4]⟩
abbrev S16384x1024 : Shape := ⟨2, ![16384, 1024]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16384x16x16, .i32⟩
  | .hbm, ⟨1, _⟩ => ⟨S1024x4, .f32⟩
  | .hbm, ⟨2, _⟩ => ⟨S4, .f32⟩
  | .hbm, ⟨3, _⟩ => ⟨S1024x1024, .f32⟩
  | .hbm, ⟨4, _⟩ => ⟨S1024, .f32⟩
  | .hbm, ⟨5, _⟩ => ⟨S_, .i32⟩
  | .hbm, ⟨6, _⟩ => ⟨S16384x16x16, .i32⟩
  | .hbm, ⟨7, _⟩ => ⟨S16384x16x16, .i1⟩
  | .hbm, ⟨8, _⟩ => ⟨S_, .i32⟩
  | .hbm, ⟨9, _⟩ => ⟨S16384x16x16, .i32⟩
  | .hbm, ⟨10, _⟩ => ⟨S16384x16x16, .i32⟩
  | .hbm, ⟨11, _⟩ => ⟨S16384x16x16, .i32⟩
  | .hbm, ⟨12, _⟩ => ⟨S16384x16x16x1, .i32⟩
  | .hbm, ⟨13, _⟩ => ⟨S16384x16x16x4, .f32⟩
  | .hbm, ⟨14, _⟩ => ⟨S1x1x1x4, .f32⟩
  | .hbm, ⟨15, _⟩ => ⟨S16384x16x16x4, .f32⟩
  | .hbm, ⟨16, _⟩ => ⟨S16384x16x16x4, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | _, _ => ⟨S16384x16x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S16384x16x16 : S_.BroadcastsInDim S16384x16x16 (![] : Fin 0 → Fin S16384x16x16.rank)
  bcast_S16384x16x16_S16384x16x16x1_0_1_2 : S16384x16x16.BroadcastsInDim S16384x16x16x1 (![0, 1, 2] : Fin 3 → Fin S16384x16x16x1.rank)
  bcast_S4_S1x1x1x4_3 : S4.BroadcastsInDim S1x1x1x4 (![3] : Fin 1 → Fin S1x1x1x4.rank)
  bcast_S1x1x1x4_S16384x16x16x4_0_1_2_3 : S1x1x1x4.BroadcastsInDim S16384x16x16x4 (![0, 1, 2, 3] : Fin 4 → Fin S16384x16x16x4.rank)
  shapeCasts_S16384x16x16x4_S16384x1024 : S16384x16x16x4.ShapeCasts S16384x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  gather_S1024x4_S16384x16x16x1_S16384x16x16x4_3_0_n_n_0_3_14_wf : GatherDims.WF S1024x4 S16384x16x16x1 S16384x16x16x4 [3] [0] [] [0] [] 3 ![1, 4]
  dot_S16384x1024_S1024x1024_S16384x1024_1_0_0_1_n_n_wf : DotDims.WF S16384x1024 S1024x1024 S16384x1024 [1] [0] [0] [1] [] []

variable [Facts₀]

def gather_S1024x4_S16384x16x16x1_S16384x16x16x4_3_0_n_n_0_3_14 : GatherDims S1024x4 S16384x16x16x1 S16384x16x16x4 where
  offsetDims := [3]
  collapsedSliceDims := [0]
  operandBatchingDims := []
  startIndicesBatchingDims := []
  startIndexMap := [0]
  indexVectorDim := 3
  sliceSizes := ![1, 4]
  wf := gather_S1024x4_S16384x16x16x1_S16384x16x16x4_3_0_n_n_0_3_14_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.KernelPayload.lean ====
/-
  What the kernel body stores at one entry of its output block, at the ideal values.

  The body loads a 2048 × 1024 block `x` of the flattened embedding, the whole 1024 × 1024 weight matrix `w` and the
  bias as one row `b` (1 × 1024), multiplies `x` by `w` into a zero accumulator and adds the bias row to every row of the
  product. Read at row `p`, column `q`:

      payload x w b (p, q) = ∑ k < 1024, x (p, k) · w (k, q) + b (0, q).

  The matrix product contracts axis 1 of `x` with axis 0 of `w`; its contraction index has one axis of extent 1024, so
  the sum over contraction indices is the sum over `k : Fin 1024`, and the operand indices at output `(p, q)` and
  contraction `k` are `(p, k)` and `(k, q)`. The zero accumulator adds `0`. The three shape casts are casts of a shape to
  itself.
-/
import proofs.«117245_j30090540876219_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## The operand indices of the block product -/

/-- Axis 0 of the left operand's index is the output's row. -/
theorem lhs_row (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl

/-- Axis 1 of the left operand's index is the contraction coordinate. -/
theorem lhs_contr (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q

/-- Axis 0 of the right operand's index is the contraction coordinate. -/
theorem rhs_contr (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q

/-- Axis 1 of the right operand's index is the output's column. -/
theorem rhs_col (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-! ## The block product at an entry -/

/-- The block's product with the weights, into a zero accumulator, at row `p` and column `q`: the inner product of row
    `p` of the block with column `q` of the weights. -/
theorem product_apply (x : FVec Ideal S2048x1024 .bf16) (w : FVec Ideal S1024x1024 .bf16) (p : Fin 2048) (q : Fin 1024) :
    matmul dot_S2048x1024_S1024x1024_S2048x1024_1_0_0_1_n_n none x w (constant (F := Ideal) S2048x1024 .f32 0x00000000#32) (ix2 p q)
      = ∑ k : Fin 1024, x (ix2 p k) * w (ix2 k q) := by
  refine (Ideal.matmul_constant_zero_apply dot_S2048x1024_S1024x1024_S2048x1024_1_0_0_1_n_n none x w (ix2 p q)).trans ?_
  rw [← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 p q) ((contrEquiv1 dot_S2048x1024_S1024x1024_S2048x1024_1_0_0_1_n_n 1024 rfl rfl).symm k) = ix2 p k := funext fun a => Fin.ext (by
    match a with
    | ⟨0, _⟩ => exact lhs_row _ _
    | ⟨1, _⟩ => exact (lhs_contr _ _).trans hk)
  have er : dot_S2048x1024_S1024x1024_S2048x1024_1_0_0_1_n_n.rhsIdx (ix2 p q) ((contrEquiv1 dot_S2048x1024_S1024x1024_S2048x1024_1_0_0_1_n_n 1024 rfl rfl).symm k) = ix2 k q := funext fun a => Fin.ext (by
    match a with
    | ⟨0, _⟩ => exact (rhs_contr _ _).trans hk
    | ⟨1, _⟩ => exact rhs_col _ _)
  rw [el, er]

/-! ## The payload at an entry -/

/-- The stored value at row `p`, column `q` of the block: the inner product, plus the bias row at `q`. -/
theorem payload_apply (x : FVec Ideal S2048x1024 .bf16) (w : FVec Ideal S1024x1024 .bf16) (b : FVec Ideal S1x1024 .f32)
    (p : Fin 2048) (q : Fin 1024) :
    k0_pay1 (F := Ideal) x w b (ix2 p q) = (∑ k : Fin 1024, x (ix2 p k) * w (ix2 k q)) + b (ix2 (0 : Fin 1) q) := by
  unfold k0_pay1
  rw [shapeCast_self, shapeCast_self, shapeCast_self, addf_apply, product_apply, broadcastTo_1b_ab_apply]

end Cert.KernelIdeal.Payload

end
-- ==== Proof.Dense.lean ====
/-
  The dense layer as ONE function of its three arrays, on the extended reals: entry (r, n) of the result is the inner
  product of row r of the flattened embedding with column n of the weight matrix, plus entry n of the bias,

      dense flat W b (r, n) = ∑ k < 1024, flat (r, k) · W (k, n) + b n.

  Both programs compute this arrangement of the sum (one contraction over the 1024 features, the bias added after), so
  no law of the extended reals beyond reading each side at an index is needed, and no finiteness.
-/
import Idealize.ShloMosaic.PureOps.Ideal
import Idealize.ShloMosaic.Lib.ValueIdx

noncomputable section

namespace Cert.Dense

open Idealize.ShloMosaic Idealize.ShloMosaic.ValueIdx

/-- Entry `(r, n)` of `flat · W + b`: the sum over the 1024 features of `flat (r, k) · W (k, n)`, plus `b n`. -/
def dense (flat : FVec Ideal ⟨2, ![16384, 1024]⟩ .f32) (W : FVec Ideal ⟨2, ![1024, 1024]⟩ .f32)
    (b : FVec Ideal ⟨1, ![1024]⟩ .f32) : FVec Ideal ⟨2, ![16384, 1024]⟩ .f32 :=
  fun i => (∑ k : Fin 1024, flat (ix2 (i 0) k) * W (ix2 k (i 1))) + b (ix1 (i 1))

theorem dense_apply (flat : FVec Ideal ⟨2, ![16384, 1024]⟩ .f32) (W : FVec Ideal ⟨2, ![1024, 1024]⟩ .f32)
    (b : FVec Ideal ⟨1, ![1024]⟩ .f32) (r : Fin 16384) (n : Fin 1024) :
    dense flat W b (ix2 r n) = (∑ k : Fin 1024, flat (ix2 r k) * W (ix2 k n)) + b (ix1 n) := rfl

end Cert.Dense

end
-- ==== Proof.KernelArray.lean ====
/-
  The kernel's result array after the run, at the ideal values.

  The one pallas_call walks 8 grid points. At point `t` it fetches rows `2048·t … 2048·t + 2047` of the flattened
  embedding (all 1024 columns), the whole weight matrix and the whole one-row bias, and writes back rows
  `2048·t … 2048·t + 2047` of the result. By the payload read at an entry, row `p` of what point `t` writes back is row
  `2048·t + p` of

      regionDense a w b (r, n) = ∑ k < 1024, a (r, k) · w (k, n) + b (0, n)

  of the three arrays as the region finds them. Row `r` lies in the block of point `r / 2048`, so the 8 blocks cover the
  array and the array ends at `regionDense`.

  The three arrays are written by the host operations before the call: `a` is the flattened embedding narrowed to
  bf16, `w` the weights narrowed to bf16, `b` the bias reshaped to one row. At the ideal values a narrowing is the
  identity and the one-row reshape reads the bias at its column, so `regionDense a w b` is `dense flat W bias`.
-/
import proofs.«117245_j30090540876219_1_alg».proof.Proof.Gen.KernelIdeal.Value
import proofs.«117245_j30090540876219_1_alg».proof.Proof.KernelPayload
import proofs.«117245_j30090540876219_1_alg».proof.Proof.Dense
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The dense layer over the arrays the region finds -/

/-- `∑ k, a (r, k) · w (k, n) + b (0, n)`: the dense layer with the bias held as a one-row matrix. -/
def regionDense (a : FVec Ideal S16384x1024 .bf16) (w : FVec Ideal S1024x1024 .bf16) (b : FVec Ideal S1x1024 .f32) :
    FVec Ideal S16384x1024 .f32 :=
  fun i => (∑ k : Fin 1024, a (ix2 (i 0) k) * w (ix2 k (i 1))) + b (ix2 (0 : Fin 1) (i 1))

/-! ## The block indices over the grid -/

theorem origin_eq : (![0, 0] : Fin 2 → Nat) = fun _ => 0 := funext fun a => by fin_cases a <;> rfl

/-- At every grid point the embedding's block row is the result's block row; every other block index is `0`. -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Each of the 8 block rows of the result is some grid point's. -/
theorem block_row_onto : ∀ q : Fin 8, ∃ t : Fin cfg0.N, win0_3.index t = ![q.val, 0] :=
  (by decide +kernel : ∀ q : Fin 8, ∃ t : Fin grid0.N, win0_3.index t = ![q.val, 0])

/-! ## What a grid point writes back -/

/-- Point `t` writes back block `t` of `regionDense` of the arrays the region finds. -/
theorem flushed_eq (c : Dev nD) (t : Fin cfg0.N) :
    (dats m 0 c).flushed 3 t
      = ((cfg0.win 3).blk t).view.read (Elt Ideal) (regionDense (V m c main_v11) (V m c main_v12) (V m c main_v13)) := by
  rw [Value.flushed3]
  unfold out0_3
  rw [View.canon_unit_zero origin_eq]
  simp only [View.ld_unit_zero (S := S2048x1024) origin_eq, View.ld_unit_zero (S := S1024x1024) origin_eq,
    View.ld_unit_zero (S := S1x1024) origin_eq]
  obtain ⟨e00, e01, e10, e11, e20, e21, e31⟩ := block_indices t
  funext j
  obtain ⟨p, q, rfl⟩ : ∃ (p : Fin 2048) (q : Fin 1024), j = ix2 p q := ⟨j 0, j 1, eq_ix2 j⟩
  show k0_pay1 (F := Ideal) (iblk m c 0 t) (iblk m c 1 t) (iblk m c 2 t) (ix2 p q)
    = regionDense (V m c main_v11) (V m c main_v12) (V m c main_v13) (((cfg0.win 3).blk t).view.emb (ix2 p q))
  refine (Payload.payload_apply (iblk m c 0 t) (iblk m c 1 t) (iblk m c 2 t) p q).trans ?_
  unfold regionDense
  refine congrArg₂ (· + ·) (Finset.sum_congr rfl fun k _ => congrArg₂ (· * ·) ?_ ?_) ?_
  · -- row `p` of the embedding's block is row `2048·t + p` of the embedding
    show V m c main_v11 (((cfg0.win 0).blk t).view.emb (ix2 p k))
      = V m c main_v11 (ix2 (((cfg0.win 3).blk t).view.emb (ix2 p q) 0) k)
    refine congrArg _ (funext fun a => Fin.ext ?_)
    match a with
    | ⟨0, _⟩ => show win0_0.index t (0 : Fin 2) * 2048 + 1 * p.val = win0_3.index t (0 : Fin 2) * 2048 + 1 * p.val; omega
    | ⟨1, _⟩ => show win0_0.index t (1 : Fin 2) * 1024 + 1 * k.val = k.val; omega
  · -- the weights' one block is the whole matrix
    show V m c main_v12 (((cfg0.win 1).blk t).view.emb (ix2 k q))
      = V m c main_v12 (ix2 k (((cfg0.win 3).blk t).view.emb (ix2 p q) 1))
    refine congrArg _ (funext fun a => Fin.ext ?_)
    match a with
    | ⟨0, _⟩ => show win0_1.index t (0 : Fin 2) * 1024 + 1 * k.val = k.val; omega
    | ⟨1, _⟩ => show win0_1.index t (1 : Fin 2) * 1024 + 1 * q.val = win0_3.index t (1 : Fin 2) * 1024 + 1 * q.val; omega
  · -- the bias row's one block is the whole row
    show V m c main_v13 (((cfg0.win 2).blk t).view.emb (ix2 (0 : Fin 1) q))
      = V m c main_v13 (ix2 (0 : Fin 1) (((cfg0.win 3).blk t).view.emb (ix2 p q) 1))
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega

/-! ## The blocks cover the array -/

/-- An entry of the result lies in point `t`'s block iff each coordinate lies in the block's range on its axis. -/
theorem mem_block (t : Fin cfg0.N) (i : S16384x1024.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v14).slice (win0_3.rect t)).set ↔ _
  rw [View.set_slice_whole, Rect.mem_set_unit]
  exact Iff.rfl

/-- Row `r` lies in the block of the point whose block row is `r / 2048`. -/
theorem covered (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  obtain ⟨t, ht⟩ := block_row_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1024 ≤ (i 1).val ∧ (i 1).val < win0_3.index t (1 : Fin 2) * 1024 + 1024; omega

/-- The result array after the run is `regionDense` of the arrays the region finds. -/
theorem array_eq (c : Dev nD) :
    (dats m 0 c).arrAt 3 cfg0.N = regionDense (V m c main_v11) (V m c main_v12) (V m c main_v13) :=
  (dats m 0 c).arrAt_eq_of_cover 3 _ (fun t _ => flushed_eq m c t) covered

/-! ## The arrays the region finds, from the host operations before the call -/

/-- The flattened embedding, as the host operations before the call compute it from the token ids `x0`, the embedding
    table `x1` and the embedding bias `x2`: negative ids wrapped by the table's length, the table's rows gathered, the
    bias added along the last axis, the four axes flattened to two. Never opened: the reference computes the same
    term. -/
def flat (x0 : IVec S16384x16x16 32) (x1 : FVec Ideal S1024x4 .f32) (x2 : FVec Ideal S4 .f32) : FVec Ideal S16384x1024 .f32 :=
  shapeCast S16384x1024 (addf (F := Ideal) (Host.gather gather_S1024x4_S16384x16x16x1_S16384x16x16x4_3_0_n_n_0_3_14 x1 (broadcastInDim S16384x16x16x1 ![0, 1, 2] bcast_S16384x16x16_S16384x16x16x1_0_1_2 (select (cmpi .slt x0 (broadcastInDim S16384x16x16 ![] bcast_S_S16384x16x16 (constantI S_ 32 0#32))) (addi x0 (broadcastInDim S16384x16x16 ![] bcast_S_S16384x16x16 (constantI S_ 32 1024#32))) x0))) (broadcastInDim S16384x16x16x4 ![0, 1, 2, 3] bcast_S1x1x1x4_S16384x16x16x4_0_1_2_3 (broadcastInDim S1x1x1x4 ![3] bcast_S4_S1x1x1x4_3 x2))) shapeCasts_S16384x16x16x4_S16384x1024

/-- The call's first operand is the flattened embedding: its narrowing to bf16 is the identity at the ideal values. -/
theorem embedding_found (c : Dev nD) :
    (V m c main_v11 : S16384x1024.Idx → EReal)
      = flat (m ((c.tc : Thread nD τ).loc main_arg0)) (m ((c.tc : Thread nD τ).loc main_arg1)) (m ((c.tc : Thread nD τ).loc main_arg2)) := by
  dsimp only [Gen.V, Gen.hostOps0]; after_results; rfl

/-- Its second operand is the weights: their narrowing to bf16 is the identity at the ideal values. -/
theorem weights_found (c : Dev nD) :
    (V m c main_v12 : S1024x1024.Idx → EReal) = m ((c.tc : Thread nD τ).loc main_arg3) := by
  dsimp only [Gen.V, Gen.hostOps0]; after_results; rfl

/-- Its third operand is the bias reshaped to one row. -/
theorem bias_found (c : Dev nD) :
    (V m c main_v13 : S1x1024.Idx → EReal)
      = shapeCast S1x1024 (m ((c.tc : Thread nD τ).loc main_arg4) : S1024.Idx → EReal) shapeCasts_S1024_S1x1024 := by
  dsimp only [Gen.V, Gen.hostOps0]; after_results; rfl

/-- With the narrowings the identity and the one-row reshape read at its column, the dense layer over the arrays the
    region finds is the dense layer of the flattened embedding, the weights and the bias. -/
theorem regionDense_found (c : Dev nD) :
    regionDense (V m c main_v11) (V m c main_v12) (V m c main_v13)
      = Cert.Dense.dense (flat (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4)) := by
  funext i
  unfold regionDense Cert.Dense.dense
  rw [embedding_found m c, weights_found m c, bias_found m c]
  exact congrArg (_ + ·) (shapeCast_a_1a_apply _ shapeCasts_S1024_S1x1024 (0 : Fin 1) (i 1))

/-! ## The run -/

/-- Every weakly fair execution of the idealized kernel ends with the result array at the dense layer of the flattened
    embedding, the weights and the bias, and the arguments unchanged. -/
theorem run : θ_run defs (onTc (τ := τ) (main (F := Ideal))) ⟨m, fun _ => 0, ρ⟩ fun r => ∀ c : Dev nD,
      r.2.mem ((c : Thread nD τ).loc main_v14)
        = Cert.Dense.dense (flat (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1.trans (array_eq m c)).trans (regionDense_found m c), (h c).2⟩)
    (Value.run_blocks m ρ)

end Cert.KernelIdeal.Result

end
-- ==== Proof.RefDense.lean ====
/-
  The reference's result is the dense layer of its own flattened embedding.

  The reference adds to `dot_general flat W` (one contraction over the 1024 features) the bias broadcast first to one
  row and then down the 16384 rows. Read at `(r, n)` that is `∑ k, flat (r, k) · W (k, n) + b n`: the stage `dense`. The
  stage `flat` (index wrap, gather, bias of the embedding, reshape) is never opened.
-/
import proofs.«117245_j30090540876219_1_alg».proof.Proof.Gen.ReferenceIdeal.Read
import proofs.«117245_j30090540876219_1_alg».proof.Proof.Dense

noncomputable section

namespace Cert.ReferenceIdeal.RefValue

open Cert.ReferenceIdeal Cert.ReferenceIdeal.Gen Cert.ReferenceIdeal.Read Idealize.ShloMosaic Idealize.ShloMosaic.ValueIdx

/-- The left operand of the contraction is read at `(r, k)`. -/
theorem lidx_eq (i : S16384x1024.Idx) (k : Fin 1024) : lidx_main_v11 i k = ix2 (i 0) k :=
  funext fun a => Fin.ext (by match a with | ⟨0, _⟩ => rfl | ⟨1, _⟩ => rfl)

/-- The right operand of the contraction is read at `(k, n)`. -/
theorem ridx_eq (i : S16384x1024.Idx) (k : Fin 1024) : ridx_main_v11 i k = ix2 k (i 1) :=
  funext fun a => Fin.ext (by match a with | ⟨0, _⟩ => rfl | ⟨1, _⟩ => rfl)

/-- Through its two broadcasts the bias is read at `n`. -/
theorem bidx_eq (i : S16384x1024.Idx) : idx_main_v12 (idx_main_v13 i) = ix1 (i 1) :=
  funext fun a => Fin.ext (by match a with | ⟨0, _⟩ => rfl)

/-- The reference's result stage is `dense` of its flattened-embedding stage, the weights and the bias. -/
theorem result_eq_dense (x0 : (⟨S16384x16x16, .i32⟩ : BufTy).Contents (Elt Ideal)) (x1 : (⟨S1024x4, .f32⟩ : BufTy).Contents (Elt Ideal))
    (x2 : (⟨S4, .f32⟩ : BufTy).Contents (Elt Ideal)) (x3 : (⟨S1024x1024, .f32⟩ : BufTy).Contents (Elt Ideal))
    (x4 : (⟨S1024, .f32⟩ : BufTy).Contents (Elt Ideal)) :
    val_main_v14 (F := Ideal) x0 x1 x2 x3 x4 = Cert.Dense.dense (val_main_v10 (F := Ideal) x0 x1 x2) x3 x4 := by
  funext i
  rw [val_main_v14_apply, val_main_v11_apply, val_main_v13_apply, val_main_v12_apply]
  simp only [lidx_eq, ridx_eq, bidx_eq, Ideal.addf_def]
  rfl

end Cert.ReferenceIdeal.RefValue

end
-- ==== Proof.lean ====
/-
  The dense layer of a flattened embedding, tiled over 8 row blocks, against its one-shot reference.

  Both programs first build the same flattened embedding `flat` (token ids wrapped, the table's rows gathered, the
  embedding bias added, four axes flattened to two) by the same host operations. The kernel then narrows `flat` and the
  weights to bf16 — the identity at the ideal values —, reshapes the bias to one row, and for each block of 2048 rows
  multiplies the block by the weights into a zero accumulator and adds the bias row; the reference contracts `flat`
  with the weights in one `dot_general` and adds the bias broadcast down the rows. Entry (r, n) of either result is

      ∑ k < 1024, flat (r, k) · W (k, n) + b n

  on the extended reals: the same sum in the same arrangement, so the two agree with no appeal to finiteness.

  The three frames: the two kernel programs' are the generated class-A frames; the reference's is its generated run
  with the result dropped. The ideal pass rewrote nothing, so the idealization claim is `True`.
-/
import proofs.«117245_j30090540876219_1_alg».proof.Defs
import proofs.«117245_j30090540876219_1_alg».proof.Proof.Gen.Kernel
import proofs.«117245_j30090540876219_1_alg».proof.Proof.Gen.Kernel.Skeleton
import proofs.«117245_j30090540876219_1_alg».proof.Proof.Gen.Kernel.Launch
import proofs.«117245_j30090540876219_1_alg».proof.Proof.Gen.Kernel.Points
import proofs.«117245_j30090540876219_1_alg».proof.Proof.Gen.Kernel.Frame
import proofs.«117245_j30090540876219_1_alg».proof.Proof.Gen.KernelIdeal
import proofs.«117245_j30090540876219_1_alg».proof.Proof.Gen.KernelIdeal.Skeleton
import proofs.«117245_j30090540876219_1_alg».proof.Proof.Gen.KernelIdeal.Launch
import proofs.«117245_j30090540876219_1_alg».proof.Proof.Gen.KernelIdeal.Points
import proofs.«117245_j30090540876219_1_alg».proof.Proof.Gen.KernelIdeal.Frame
import proofs.«117245_j30090540876219_1_alg».proof.Proof.Gen.ReferenceIdeal
import proofs.«117245_j30090540876219_1_alg».proof.Proof.Gen.Pre_finite_inputs
import proofs.«117245_j30090540876219_1_alg».proof.Proof.Gen.KernelIdeal.Value
import proofs.«117245_j30090540876219_1_alg».proof.Proof.Gen.ReferenceIdeal.Run
import proofs.«117245_j30090540876219_1_alg».proof.Proof.Gen.ReferenceIdeal.Read
import Idealize.ShloMosaic.Adequacy
import Idealize.ShloMosaic.Init
import proofs.«117245_j30090540876219_1_alg».proof.Proof.KernelArray
import proofs.«117245_j30090540876219_1_alg».proof.Proof.RefDense

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's host operations and the reference's build the flattened embedding by one and the same term. -/
theorem flat_eq (x0 : (⟨Cert.ReferenceIdeal.S16384x16x16, .i32⟩ : BufTy).Contents (Elt Ideal))
    (x1 : (⟨Cert.ReferenceIdeal.S1024x4, .f32⟩ : BufTy).Contents (Elt Ideal))
    (x2 : (⟨Cert.ReferenceIdeal.S4, .f32⟩ : BufTy).Contents (Elt Ideal)) :
    Cert.ReferenceIdeal.Read.val_main_v10 (F := Ideal) x0 x1 x2 = Cert.KernelIdeal.Result.flat x0 x1 x2 := rfl

/-- From memories that agree on the five arguments both idealized programs end with the result at
    `dense flat W b`: the kernel by its blocks (`Result.run`), the reference by its run read at an index. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq_dense, flat_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
